-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Region0.lean ====
/-
  The first launch: twenty blocks of 5000 rows of  x · W .

  Point t of the grid stages rows 5000·t … 5000·t + 4999 of the node features x (all 256 columns) and the whole
  weight matrix W, multiplies them on the matrix unit into a zero accumulator, and writes the 5000 × 64 result back
  as rows 5000·t … of the support array. Over the extended reals the narrowing of both operands to bf16 is the
  identity and the product into zeros is the plain sum  Σ_k x(r,k) · W(k,c) , which is also what the host's general
  product of the two whole arrays reads at (r, c). So block t of the support array is block t of the whole product,
  the twenty blocks tile the 100000 rows, and the array ends holding the whole product  x · W .

  Everything is stated at ANY contents V of the buffers when the launch is entered.
-/
import proofs.«164338_j27513560498274_1_alg».proof.Proof.Gen.KernelIdeal.Frame
import proofs.«164338_j27513560498274_1_alg».proof.Proof.LibDense
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Support

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at row p and column q of its block: the sum over k of the staged x-block's (p, k) times
    the staged W's (k, q). -/
theorem payload_apply (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  refine (Cert.Dense.matmul_zero_plain_apply dot_S5000x256_S256x64_S5000x64_1_0_0_1_n_n rfl rfl rfl rfl rfl rfl none _ _ p q).trans ?_
  rfl

/-- The printed index maps over the twenty points: the x window and the output window sit at block row t, the W
    window at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged x block at point t is rows 5000·t … of x. -/
theorem xblock_apply (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The staged W block at every point is W. -/
theorem wblock_apply (c : Dev nD) (t : Fin cfg0.N) (y : S256x64.Idx) (i : S256x64.Idx)
    (h0 : (i 0).val = (y 0).val) (h1 : (i 1).val = (y 1).val) :
    (iblk0 V c 1 t : Vec Ideal S256x64 .f32) y = (V c main_arg4 : S256x64.Idx → Elt Ideal .f32) i := by
  obtain ⟨-, -, e2, e3, -⟩ := index_facts t
  unfold iblk0
  rw [View.read_apply]
  show V c main_arg4 _ = V c main_arg4 _
  congr 1
  funext a
  apply Fin.ext
  match a with
  | ⟨0, _⟩ => show win0_1.index t (0 : Fin 2) * 256 + 1 * (y 0).val = (i 0).val; rw [e2, h0]; omega
  | ⟨1, _⟩ => show win0_1.index t (1 : Fin 2) * 64 + 1 * (y 1).val = (i 1).val; rw [e3, h1]; omega

/-- The host's whole product of a [100000, 256] array with a [256, 64] array, as an array of extended reals. -/
abbrev product (d : DotDims S100000x256 S256x64 S100000x64) (X : FVec Ideal S100000x256 .f32)
    (W : FVec Ideal S256x64 .f32) : S100000x64.Idx → Elt Ideal .f32 :=
  Host.dotGeneral (F := Ideal) d none X W

/-- The host's whole product of two arrays at any entry of the [100000, 64] result. -/
theorem product_apply (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = [])
    (X : FVec Ideal S100000x256 .f32) (W : FVec Ideal S256x64 .f32) (i : S100000x64.Idx) :
    product d X W i = ∑ k : Fin 256, X (ix2 (i 0) k) * W (ix2 k (i 1)) := by
  show Host.dotGeneral d none X W i = _
  refine Eq.trans ?_ (Cert.Dense.dotGeneral_plain_apply d h1 h2 h3 h4 h5 h6 none X W (i 0) (i 1))
  exact congrArg (Host.dotGeneral d none X W) (eq_ix2 i)

/-- WHAT POINT t WRITES BACK is block t of the whole product of x and W as the launch finds them. -/
theorem flushed_eq (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = [])
    (c : Dev nD) (t : Fin cfg0.N) :
    (dat0 V c).flushed 2 t
      = ((cfg0.win 2).blk t).view.read (Elt Ideal) (product d (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨-, -, -, -, e4, e5⟩ := index_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = product d (V c main_arg0) (V c main_arg4) (((cfg0.win 2).blk t).view.emb (ix2 p q))
  refine (payload_apply (iblk0 V c 0 t) (iblk0 V c 1 t) p q).trans ?_
  refine Eq.trans ?_ (product_apply d h1 h2 h3 h4 h5 h6 (V c main_arg0) (V c main_arg4) _).symm
  refine Finset.sum_congr rfl fun k _ => ?_
  have hr : ((((cfg0.win 2).blk t).view.emb (ix2 p q)) 0 : Fin 100000).val = 5000 * t.val + p.val := by
    show win0_2.index t (0 : Fin 2) * 5000 + 1 * p.val = _
    rw [e4]; omega
  have hc : ((((cfg0.win 2).blk t).view.emb (ix2 p q)) 1 : Fin 64).val = q.val := by
    show win0_2.index t (1 : Fin 2) * 64 + 1 * q.val = _
    rw [e5]; omega
  rw [xblock_apply V c t (ix2 p k) (ix2 ((((cfg0.win 2).blk t).view.emb (ix2 p q)) 0) k) hr rfl,
    wblock_apply V c t (ix2 k q) (ix2 k ((((cfg0.win 2).blk t).view.emb (ix2 p q)) 1)) rfl hc]

/-- An entry of the support array is in point t's block iff each coordinate is in the block's range on its axis. -/
theorem mem_block (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v0).slice (win0_2.rect t)).set ↔ _
  rw [View.set_slice_whole, Rect.mem_set_unit]
  exact Iff.rfl

/-- Every entry of the support array lies in the block of the point its row number divided by 5000 names. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]; omega

/-- THE SUPPORT ARRAY after the first launch is the whole product of x and W as the launch finds them. -/
theorem final (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = []) (c : Dev nD) :
    (dat0 V c).arrAt 2 cfg0.N = product d (V c main_arg0) (V c main_arg4) :=
  (dat0 V c).arrAt_eq_of_cover 2 _ (fun t _ => flushed_eq V d h1 h2 h3 h4 h5 h6 c t) cover

end Cert.KernelIdeal.Support

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Region1.lean ====
/-
  The second launch: ten blocks of 10000 rows of  max(agg + bias, 0) .

  Point t of the grid stages rows 10000·t … 10000·t + 9999 of the aggregated array agg (all 64 columns) and the whole
  bias row, adds the bias to every staged row, takes the maximum with zero, and writes the block back as the same
  rows of the result. At an entry (r, c) that is  max(agg(r, c) + bias_c, 0) , which is also what the host's
  spelling of the same layer — the bias laid out as a [1, 64] row and then over the 100000 rows, added, and the
  maximum taken with a zero laid out over the array — reads at (r, c). So block t of the result is block t of that
  whole-array term, the ten blocks tile the 100000 rows, and the result array ends holding it.

  Everything is stated at ANY contents V of the buffers when the launch is entered.
-/
import proofs.«164338_j27513560498274_1_alg».proof.Proof.Gen.KernelIdeal.Frame
import proofs.«164338_j27513560498274_1_alg».proof.Proof.LibDense
import proofs.«164338_j27513560498274_1_alg».proof.Proof.LibBiasRow
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rectify

open Cert.KernelIdeal Cert.KernelIdeal.Gen

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The layer as the host spells it, as an array of extended reals: the bias row laid out over the rows and added
    to A, then the maximum with a zero laid out over the array. -/
abbrev rectified (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2))
    (A : FVec Ideal S100000x64 .f32) (b : FVec Ideal S64 .f32) : S100000x64.Idx → Elt Ideal .f32 :=
  maximumf (addf A (broadcastInDim S100000x64 ![0, 1] hb2 (broadcastInDim S1x64 ![1] hb1 b)))
    (broadcastInDim S100000x64 ![] hb0 (constant (F := Ideal) S_ .f32 0x00000000#32))

/-- The host's spelling at any entry: the maximum of A's entry plus the bias of its column, and zero. -/
theorem rectified_apply (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2))
    (A : FVec Ideal S100000x64 .f32) (b : FVec Ideal S64 .f32) (i : S100000x64.Idx) :
    rectified hb1 hb2 hb0 A b i = max (A i + b (ix1 (i 1))) 0 := by
  have hbias : broadcastInDim S100000x64 ![0, 1] hb2 (broadcastInDim S1x64 ![1] hb1 b) i = b (ix1 (i 1)) :=
    (congrArg (broadcastInDim S100000x64 ![0, 1] hb2 (broadcastInDim S1x64 ![1] hb1 b)) (eq_ix2 i)).trans
      (Cert.BiasRow.layout_layout_apply hb1 hb2 b (i 0) (i 1))
  refine (Cert.Dense.host_relu_apply hb0 _ i).trans ?_
  rw [addf_apply, hbias]

/-- What the body stores, at row p and column q of its block: the maximum of the staged agg-block's (p, q) plus the
    staged bias at q, and zero. -/
theorem payload_apply (x0 : Vec Ideal S10000x64 .f32) (x1 : Vec Ideal S64 .f32) (p : Fin 10000) (q : Fin 64) :
    k1_pay1 (F := Ideal) x0 x1 (ix2 p q) = max (x0 (ix2 p q) + x1 (ix1 q)) 0 := by
  unfold k1_pay1
  refine (Cert.Dense.kernel_relu_apply _ (ix2 p q)).trans ?_
  rw [addf_apply, shapeCast_self, Cert.BiasRow.cast_stretch_apply]

/-- The printed index maps over the ten points: the agg window and the output window sit at block row t, the bias
    window at block 0. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The staged agg block at point t is rows 10000·t … of agg. -/
theorem aggblock_apply (c : Dev nD) (t : Fin cfg1.N) (y : S10000x64.Idx) (i : S100000x64.Idx)
    (h0 : (i 0).val = 10000 * t.val + (y 0).val) (h1 : (i 1).val = (y 1).val) :
    (iblk1 V c 0 t : Vec Ideal S10000x64 .f32) y = (V c main_v13 : S100000x64.Idx → Elt Ideal .f32) i := by
  obtain ⟨e0, e1, -⟩ := index_facts t
  unfold iblk1
  rw [View.read_apply]
  show V c main_v13 _ = V c main_v13 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The staged bias block at every point is the bias row. -/
theorem biasblock_apply (c : Dev nD) (t : Fin cfg1.N) (y : S64.Idx) (i : S64.Idx) (h0 : (i 0).val = (y 0).val) :
    (iblk1 V c 1 t : Vec Ideal S64 .f32) y = (V c main_arg5 : S64.Idx → Elt Ideal .f32) i := by
  obtain ⟨-, -, e2, -⟩ := index_facts t
  unfold iblk1
  rw [View.read_apply]
  show V c main_arg5 _ = V c main_arg5 _
  congr 1
  funext a
  apply Fin.ext
  match a with
  | ⟨0, _⟩ => show win1_1.index t (0 : Fin 1) * 64 + 1 * (y 0).val = (i 0).val; rw [e2, h0]; omega

/-- WHAT POINT t WRITES BACK is block t of the host's spelling of the layer over agg and the bias as the launch
    finds them. -/
theorem flushed_eq (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2)) (c : Dev nD) (t : Fin cfg1.N) :
    (dat1 V c).flushed 2 t
      = ((cfg1.win 2).blk t).view.read (Elt Ideal) (rectified hb1 hb2 hb0 (V c main_v13) (V c main_arg5)) := by
  show (cfg1.win 2).cut (grid1.coords t) ((dat1 V c).after 2 t) = _
  rw [after1_2]
  unfold out1_2
  rw [View.canon_unit_zero zero_offsets2]
  simp only [View.ld_unit_zero (S := S10000x64) zero_offsets2, View.ld_unit_zero (S := S64) zero_offsets1]
  obtain ⟨-, -, -, e3, e4⟩ := index_facts t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = rectified hb1 hb2 hb0 (V c main_v13) (V c main_arg5) (((cfg1.win 2).blk t).view.emb (ix2 p q))
  refine (payload_apply (iblk1 V c 0 t) (iblk1 V c 1 t) p q).trans ?_
  refine Eq.trans ?_ (rectified_apply hb1 hb2 hb0 (V c main_v13) (V c main_arg5) _).symm
  have hr : ((((cfg1.win 2).blk t).view.emb (ix2 p q)) 0 : Fin 100000).val = 10000 * t.val + p.val := by
    show win1_2.index t (0 : Fin 2) * 10000 + 1 * p.val = _
    rw [e3]; omega
  have hc : ((((cfg1.win 2).blk t).view.emb (ix2 p q)) 1 : Fin 64).val = q.val := by
    show win1_2.index t (1 : Fin 2) * 64 + 1 * q.val = _
    rw [e4]; omega
  rw [aggblock_apply V c t (ix2 p q) (((cfg1.win 2).blk t).view.emb (ix2 p q)) hr hc,
    biasblock_apply V c t (ix1 q) (ix1 ((((cfg1.win 2).blk t).view.emb (ix2 p q)) 1)) hc]

/-- An entry of the result array is in point t's block iff each coordinate is in the block's range on its axis. -/
theorem mem_block (t : Fin cfg1.N) (i : S100000x64.Idx) :
    i ∈ ((cfg1.win 2).blk t).view.set
      ↔ ∀ a : Fin 2, win1_2.index t a * S10000x64.size a ≤ (i a).val
          ∧ (i a).val < win1_2.index t a * S10000x64.size a + S10000x64.size a := by
  show i ∈ ((View.whole main_v14).slice (win1_2.rect t)).set ↔ _
  rw [View.set_slice_whole, Rect.mem_set_unit]
  exact Iff.rfl

/-- Every entry of the result array lies in the block of the point its row number divided by 10000 names. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, e3, e4⟩ := index_facts ⟨(i 0).val / 10000, ht⟩
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e3]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e4]; omega

/-- THE RESULT ARRAY after the second launch is the host's spelling of the layer over agg and the bias as the launch
    finds them. -/
theorem final (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2)) (c : Dev nD) :
    (dat1 V c).arrAt 2 cfg1.N = rectified hb1 hb2 hb0 (V c main_v13) (V c main_arg5) :=
  (dat1 V c).arrAt_eq_of_cover 2 _ (fun t _ => flushed_eq V hb1 hb2 hb0 c t) cover

end Cert.KernelIdeal.Rectify

end
-- ==== Proof.HostChain.lean ====
/-
  Between the two launches: sixteen host operations that turn the support array into the aggregated array.

  Per edge e the host wraps a negative column number the NumPy way (cols_e + 100000 when cols_e < 0), gathers row
  cols_e of the support array, scales it by vals_e, and scatter-adds the 1600000 scaled rows into a zero
  [100000, 64] array at the row numbers rows_e. The reference program applies the very same sixteen operations to
  its own support array, so the chain is carried as ONE function `aggregate` of the support array and the three
  edge arrays and is never opened: all that is read here is that the buffer holding %13 after the stretch is
  `aggregate` of the buffers the stretch started from, and that the stretch leaves the bias buffer alone.
-/
import proofs.«164338_j27513560498274_1_alg».proof.Proof.Gen.KernelIdeal.Launch
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Edges

open Cert.KernelIdeal Cert.KernelIdeal.Gen

/-- The sixteen operations as one function: for each edge, the support row its (wrapped) column number names,
    scaled by the edge's value, added into a zero array at the edge's row number. -/
def aggregate (S : (⟨S100000x64, .f32⟩ : BufTy).Contents (Elt Ideal))
    (rows cols : (⟨S1600000, .i32⟩ : BufTy).Contents (Elt Ideal))
    (vals : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rows)
    (mulf (broadcastInDim S1600000x64 ![0, 1] bcast_S1600000x1_S1600000x64_0_1
        (broadcastInDim S1600000x1 ![0] bcast_S1600000_S1600000x1_0 vals))
      (Host.gather gather_S100000x64_S1600000x1_S1600000x64_1_0_n_n_0_1_164 S
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- After the stretch, from ANY buffer contents W, the buffer of %13 holds `aggregate` of W's support, row-number,
    column-number and value buffers. -/
theorem chain_result (W : Valuation τ sig (Elt Ideal)) :
    StableHlo.after (hostOps1 (F := Ideal)) W (Proc.devRef .tc main_v13)
      = aggregate (W (Proc.devRef .tc main_v0)) (W (Proc.devRef .tc main_arg1)) (W (Proc.devRef .tc main_arg2))
          (W (Proc.devRef .tc main_arg3)) := by
  unfold aggregate
  after_results <;> rfl

/-- The stretch does not write the bias buffer. -/
theorem chain_keeps_bias (W : Valuation τ sig (Elt Ideal)) :
    StableHlo.after (hostOps1 (F := Ideal)) W (Proc.devRef .tc main_arg5) = W (Proc.devRef .tc main_arg5) := by
  after_results <;> rfl

end Cert.KernelIdeal.Edges

end
-- ==== Proof.KernelValue.lean ====
/-
  What the kernel program's result buffer holds after @main, as one term of the six arguments.

  The buffer contents at @main's four boundaries are a fold: the launch memory; the first launch's output array
  replaced by what its write-backs leave; the sixteen host operations applied; the second launch's output array
  replaced by what its write-backs leave. Read backwards from the result buffer: it is the second launch's output
  array, which holds the bias-and-rectifier layer over the aggregated array and the bias as that launch finds them;
  the aggregated array is `aggregate` of the support array and the three edge arrays as the host stretch finds them,
  and the stretch leaves the bias alone; the edge arrays and the bias are as launched (the first launch writes none
  of them), and the support array is the first launch's output array, the whole product of x and W as launched. So
  the result is  max(aggregate(x · W, rows, cols, vals) + bias, 0)  in the host's own spelling of each step.
-/
import proofs.«164338_j27513560498274_1_alg».proof.Proof.Region0
import proofs.«164338_j27513560498274_1_alg».proof.Proof.Region1
import proofs.«164338_j27513560498274_1_alg».proof.Proof.HostChain
import proofs.«164338_j27513560498274_1_alg».proof.Proof.KernelRun

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ) (ρ : Dev nD → PrngReg)

/-- The whole forward pass in the host's spelling, as an array of extended reals. -/
abbrev forward (d : DotDims S100000x256 S256x64 S100000x64)
    (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2))
    (x : FVec Ideal S100000x256 .f32) (rows cols : (⟨S1600000, .i32⟩ : BufTy).Contents (Elt Ideal))
    (vals : FVec Ideal S1600000 .f32) (W : FVec Ideal S256x64 .f32) (bias : FVec Ideal S64 .f32) :
    S100000x64.Idx → Elt Ideal .f32 :=
  Rectify.rectified hb1 hb2 hb0 (Edges.aggregate (Support.product d x W) rows cols vals) bias

/-- The aggregated array as the second launch finds it. -/
theorem agg_entry (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = []) (c : Dev nD) :
    V2 m ρ c main_v13
      = Edges.aggregate (Support.product d (m ((c : Thread nD τ).loc main_arg0)) (m ((c : Thread nD τ).loc main_arg4)))
          (m ((c : Thread nD τ).loc main_arg1)) (m ((c : Thread nD τ).loc main_arg2)) (m ((c : Thread nD τ).loc main_arg3)) := by
  have es : W1 m ρ c (Proc.devRef .tc main_v0) = (dat0 (V0 m ρ) c).arrAt 2 cfg0.N := W1_arr m ρ c 2
  refine (Edges.chain_result (W1 m ρ c)).trans ?_
  rw [W1_of_ne m ρ c main_arg1 (by decide), W1_of_ne m ρ c main_arg2 (by decide),
    W1_of_ne m ρ c main_arg3 (by decide), es, Support.final (V0 m ρ) d h1 h2 h3 h4 h5 h6 c]

/-- The bias as the second launch finds it. -/
theorem bias_entry (c : Dev nD) : V2 m ρ c main_arg5 = m ((c : Thread nD τ).loc main_arg5) :=
  (Edges.chain_keeps_bias (W1 m ρ c)).trans (W1_of_ne m ρ c main_arg5 (by decide))

/-- THE RESULT BUFFER at @main's last boundary is the forward pass of the launch contents of the six arguments. -/
theorem result_value (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = [])
    (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2)) (c : Dev nD) :
    W3 m ρ c (Proc.devRef .tc main_v14)
      = forward d hb1 hb2 hb0 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e3 : W3 m ρ c (Proc.devRef .tc main_v14) = (dat1 (V2 m ρ) c).arrAt 2 cfg1.N := W3_arr m ρ c 2
  refine e3.trans ?_
  refine (Rectify.final (V2 m ρ) hb1 hb2 hb0 c).trans ?_
  rw [agg_entry m ρ d h1 h2 h3 h4 h5 h6 c, bias_entry m ρ c]

/-- The run of the kernel program, read: the result buffer at the forward pass of the arguments, the arguments
    unchanged. -/
theorem run (d : DotDims S100000x256 S256x64 S100000x64)
    (h1 : d.lhsContracting = [1]) (h2 : d.rhsContracting = [0]) (h3 : d.lhsNonContracting = [0])
    (h4 : d.rhsNonContracting = [1]) (h5 : d.lhsBatch = []) (h6 : d.rhsBatch = [])
    (hb1 : S64.BroadcastsInDim S1x64 (![1] : Fin 1 → Fin 2))
    (hb2 : S1x64.BroadcastsInDim S100000x64 (![0, 1] : Fin 2 → Fin 2))
    (hb0 : S_.BroadcastsInDim S100000x64 (![] : Fin 0 → Fin 2)) :
    θ_run defs (onTc (τ := τ) (main (F := Ideal))) ⟨m, fun _ => 0, ρ⟩ (fun r => ∀ c : Dev nD,
      r.2.mem ((c.tc : Thread nD τ).loc main_v14)
        = forward d hb1 hb2 hb0 (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h c).1.trans (result_value m ρ d h1 h2 h3 h4 h5 h6 hb1 hb2 hb0 c), (h c).2⟩)
    (run_named m ρ)

end Cert.KernelIdeal.Result

end
-- ==== Proof.lean ====
/-
  A graph convolution layer,  out = max(A · (x · W) + bias, 0) , against its jnp reference, over the extended reals.

  The kernel program computes the support array  x · W  in a first launch (twenty blocks of 5000 rows, both operands
  narrowed to bf16 and multiplied into a zero accumulator), applies on the host the sparse product with the
  adjacency — per edge, the support row named by the edge's column number, scaled by the edge's value, scatter-added
  at the edge's row number —, and adds the bias and takes the maximum with zero in a second launch (ten blocks of
  10000 rows). The reference computes  x · W  by one general product, applies the SAME sixteen host operations, lays
  the bias out over the rows, adds it, and takes the maximum with a zero array.

  Over the extended reals narrowing to bf16 is the identity and a product into zeros is the plain sum over the
  contracted axis, so each block of the first launch is a block of the reference's whole product, and each block of
  the second launch is a block of the reference's bias-and-maximum term; the blocks tile their arrays, so the kernel's
  result buffer ends holding the reference's own term of the six arguments (Proof/KernelValue.lean: `forward`), the
  shared host chain carried through as one function that is never opened. No law used needs a finite input: the
  precondition is taken and not opened. The idealization rewrote nothing, so `preserves` asks nothing.
-/
import proofs.«164338_j27513560498274_1_alg».proof.Defs
import proofs.«164338_j27513560498274_1_alg».proof.Proof.Gen.Kernel
import proofs.«164338_j27513560498274_1_alg».proof.Proof.Gen.Kernel.Skeleton
import proofs.«164338_j27513560498274_1_alg».proof.Proof.Gen.Kernel.Launch
import proofs.«164338_j27513560498274_1_alg».proof.Proof.Gen.Kernel.Points
import proofs.«164338_j27513560498274_1_alg».proof.Proof.Gen.Kernel.Frame
import proofs.«164338_j27513560498274_1_alg».proof.Proof.Gen.KernelIdeal
import proofs.«164338_j27513560498274_1_alg».proof.Proof.Gen.KernelIdeal.Skeleton
import proofs.«164338_j27513560498274_1_alg».proof.Proof.Gen.KernelIdeal.Launch
import proofs.«164338_j27513560498274_1_alg».proof.Proof.Gen.KernelIdeal.Points
import proofs.«164338_j27513560498274_1_alg».proof.Proof.Gen.KernelIdeal.Frame
import proofs.«164338_j27513560498274_1_alg».proof.Proof.Gen.ReferenceIdeal
import proofs.«164338_j27513560498274_1_alg».proof.Proof.Gen.ReferenceIdeal.Run
import proofs.«164338_j27513560498274_1_alg».proof.Proof.Gen.Pre_finite_inputs
import proofs.«164338_j27513560498274_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result buffer at the reference's own
    term of the arguments: the kernel's by its two launches read block by block, the reference's by its run. The
    two terms differ only in which program's copy of the gather, scatter and layout records they name, and those
    records are equal field by field. -/
theorem algebraic : Cert.algebraic_KernelIdeal_ReferenceIdeal := by
  intro m ρ m' ρ' _ hagree
  refine ⟨_, Cert.KernelIdeal.Result.run m ρ
      Cert.ReferenceIdeal.dot_S100000x256_S256x64_S100000x64_1_0_0_1_n_n rfl rfl rfl rfl rfl rfl
      Cert.ReferenceIdeal.Facts₀.bcast_S64_S1x64_1 Cert.ReferenceIdeal.Facts₀.bcast_S1x64_S100000x64_0_1
      Cert.ReferenceIdeal.Facts₀.bcast_S_S100000x64, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
